-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x32768 : Shape := ⟨2, ![4096, 32768]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_

variable [Facts]

def fn {F : FTy → Type} [FloatOps F] (main_arg0 : FVec F S4096x4096 .f32) (main_arg1 : FVec F S4096x32768 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  main_v8
-- ==== Kernel.lean ====
abbrev S4096x4096 : Shape := ⟨2, ![4096, 4096]⟩
abbrev S4096x32768 : Shape := ⟨2, ![4096, 32768]⟩
abbrev S512x4096 : Shape := ⟨2, ![512, 4096]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩
abbrev S256 : Shape := ⟨1, ![256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x32768, .f32⟩
  | .hbm, ⟨2, _⟩ => ⟨S4096x32768, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S4096x256, .f32⟩
  | .local _ .vmem, ⟨4, _⟩ => ⟨S512x256, .f32⟩
  | .local _ .vmem, ⟨5, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  reduces_S512x4096_S512 : S512x4096.Reduces [1] S512
  shapeCasts_S512_S512x1 : S512.ShapeCasts S512x1
  reduces_S4096x256_S256 : S4096x256.Reduces [0] S256
  shapeCasts_S256_S1x256 : S256.ShapeCasts S1x256
  bitsLt_bf16_f32 : FTy.bits .bf16 < FTy.bits .f32
  broadcasts_S512x1_S512x256 : S512x1.Broadcasts S512x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x32768.size a
  hwx0_1 : ∀ i : grid0.Coords, EltTy.bits .f32 = 32 ∨ (Rect.block (s := S4096x32768) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x32768.size a
  hwx0_2 : ∀ i : grid0.Coords, EltTy.bits .f32 = 32 ∨ (Rect.block (s := S4096x32768) S512x256.size (cc0_transform_2 i) (hinb0_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x32768 : Shape := ⟨2, ![4096, 32768]⟩
abbrev S_ : Shape := ⟨0, ![]⟩
abbrev S4096 : Shape := ⟨1, ![4096]⟩
abbrev S32768 : Shape := ⟨1, ![32768]⟩
abbrev S4096x1 : Shape := ⟨2, ![4096, 1]⟩
abbrev S1x32768 : Shape := ⟨2, ![1, 32768]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x32768, .f32⟩
  | .hbm, ⟨2, _⟩ => ⟨S4096x32768, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S4096x1, .f32⟩
  | .hbm, ⟨18, _⟩ => ⟨S1x32768, .f32⟩
  | .hbm, ⟨19, _⟩ => ⟨S4096x32768, .f32⟩
  | .hbm, ⟨20, _⟩ => ⟨S4096x32768, .f32⟩
  | .hbm, ⟨21, _⟩ => ⟨S4096x32768, .f32⟩
  | .hbm, ⟨22, _⟩ => ⟨S4096x32768, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  reducesTo_S4096x32768_S32768_d0 : S4096x32768.ReducesTo [0] S32768
  bcast_S_S32768 : S_.BroadcastsInDim S32768 (![] : Fin 0 → Fin S32768.rank)
  bcast_S4096_S4096x1_0 : S4096.BroadcastsInDim S4096x1 (![0] : Fin 1 → Fin S4096x1.rank)
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  dot_S4096x4096_S4096x32768_S4096x32768_1_0_0_1_n_n_wf : DotDims.WF S4096x4096 S4096x32768 S4096x32768 [1] [0] [0] [1] [] []

variable [Facts₀]

def dot_S4096x4096_S4096x32768_S4096x32768_1_0_0_1_n_n : DotDims S4096x4096 S4096x32768 S4096x32768 where
  lhsContracting := [1]
  rhsContracting := [0]
  lhsNonContracting := [0]
  rhsNonContracting := [1]
  lhsBatch := []
  rhsBatch := []
  wf := dot_S4096x4096_S4096x32768_S4096x32768_1_0_0_1_n_n_wf

class Facts : Prop extends Facts₀ where

variable [Facts]
-- ==== Proof.CosineSpec.lean ====
/-
  The function both programs compute, over the extended reals: for a matrix `x` of 4096 rows of length 4096 and a
  matrix `w` of 32768 columns of length 4096, entry `(b, o)` of the result is the cosine similarity of row `b`
  of `x` and column `o` of `w`, each norm floored at a small positive constant `ε`:

      (∑ₖ x[b,k] · w[k,o]) / ( max(√(∑ₖ x[b,k]²), ε) · max(√(∑ₖ w[k,o]²), ε) ).

  `ε` is kept as its 32-bit word: the same word stands on both sides and is never evaluated.
-/
import Idealize.ShloMosaic.PureOps.Ideal
import Idealize.ShloMosaic.Lib.ValueIdx

noncomputable section

namespace Cert.Cosine

open Idealize.ShloMosaic Idealize.ShloMosaic.ValueIdx

/-- The floor under each norm, as the f32 word the programs spell it with. -/
abbrev normFloor : EReal := Ideal.ofBits .f32 0x322BCC77#32

/-- The inner product of row `b` of `x` with column `o` of `w`. -/
def inner (x : FVec Ideal ⟨2, ![4096, 4096]⟩ .f32) (w : FVec Ideal ⟨2, ![4096, 32768]⟩ .f32) (b : Fin 4096) (o : Fin 32768) : EReal :=
  ∑ k : Fin 4096, x (ix2 b k) * w (ix2 k o)

/-- The floored Euclidean norm of row `b` of `x`. -/
def rowNorm (x : FVec Ideal ⟨2, ![4096, 4096]⟩ .f32) (b : Fin 4096) : EReal :=
  max (Ideal.sqrt (∑ k : Fin 4096, x (ix2 b k) * x (ix2 b k))) normFloor

/-- The floored Euclidean norm of column `o` of `w`. -/
def colNorm (w : FVec Ideal ⟨2, ![4096, 32768]⟩ .f32) (o : Fin 32768) : EReal :=
  max (Ideal.sqrt (∑ k : Fin 4096, w (ix2 k o) * w (ix2 k o))) normFloor

/-- The cosine similarity of every row of `x` with every column of `w`. -/
def cosine (x : FVec Ideal ⟨2, ![4096, 4096]⟩ .f32) (w : FVec Ideal ⟨2, ![4096, 32768]⟩ .f32) : FVec Ideal ⟨2, ![4096, 32768]⟩ .f32 :=
  fun i => Ideal.div (inner x w (i 0) (i 1)) (rowNorm x (i 0) * colNorm w (i 1))

end Cert.Cosine

end
-- ==== Proof.ReferenceCosine.lean ====
/-
  The reference computes the cosine similarity: read one operation at a time, its result at `(b, o)` is the host's
  quotient of the contraction `∑ₖ x[b,k] · w[k,o]` by the product of two broadcast norms, the row norm of `x` at `b`
  (a sum of squares along axis 1 started from zero, a square root, a maximum with `ε`) and the column norm of `w` at
  `o` (the same along axis 0). The broadcasts only re-index: the norm of row `b` is read at every column, the norm of
  column `o` at every row. Each sum starts from the zero word, which is the real `0`.
-/
import proofs.«158232_j54425825575210_1_alg».proof.Proof.Gen.ReferenceIdeal.Read
import proofs.«158232_j54425825575210_1_alg».proof.Proof.CosineSpec

noncomputable section

namespace Cert.ReferenceIdeal.RefValue

open Cert.ReferenceIdeal Cert.ReferenceIdeal.Gen Cert.ReferenceIdeal.Read
open Idealize.ShloMosaic Idealize.ShloMosaic.ValueIdx Cert.Cosine

/-- The contraction's left index at `(b, o)` and `k` is `(b, k)`. -/
theorem lidx_eq (i : S4096x32768.Idx) (k : Fin 4096) : lidx_main_v0 i k = ix2 (i 0) k :=
  funext fun a => Fin.ext (by match a with | ⟨0, _⟩ => rfl | ⟨1, _⟩ => rfl)

/-- The contraction's right index at `(b, o)` and `k` is `(k, o)`. -/
theorem ridx_eq (i : S4096x32768.Idx) (k : Fin 4096) : ridx_main_v0 i k = ix2 k (i 1) :=
  funext fun a => Fin.ext (by match a with | ⟨0, _⟩ => rfl | ⟨1, _⟩ => rfl)

/-- Through the two broadcasts of the row norms, entry `(b, o)` reads the sum of squares of row `b`: its `k`-th term
    is at `(b, k)`. -/
theorem rowIdx_eq (i : S4096x32768.Idx) (k : Fin 4096) : idx_main_call0_v1 (idx_main_v7 (idx_main_v9 i)) k = ix2 (i 0) k :=
  funext fun a => Fin.ext (by match a with | ⟨0, _⟩ => rfl | ⟨1, _⟩ => rfl)

/-- Through the two broadcasts of the column norms, entry `(b, o)` reads the sum of squares of column `o`: its `k`-th
    term is at `(k, o)`. -/
theorem colIdx_eq (i : S4096x32768.Idx) (k : Fin 4096) : idx_main_call1_v1 (idx_main_v8 (idx_main_v10 i)) k = ix2 k (i 1) :=
  funext fun a => Fin.ext (by match a with | ⟨0, _⟩ => rfl | ⟨1, _⟩ => rfl)

/-- The reference's last stage is the cosine similarity, entry by entry. -/
theorem reference_eq (x : (⟨S4096x4096, .f32⟩ : BufTy).Contents (Elt Ideal)) (w : (⟨S4096x32768, .f32⟩ : BufTy).Contents (Elt Ideal)) :
    val_main_v12 (F := Ideal) x w = cosine x w := by
  funext i
  rw [val_main_v12_apply, val_main_v0_apply, val_main_v11_apply,
    val_main_v9_apply, val_main_v7_apply, val_main_v3_apply, val_main_v1_apply, val_main_call0_v1_apply, val_main_v2_apply, val_main_cst_apply,
    val_main_v10_apply, val_main_v8_apply, val_main_v6_apply, val_main_v4_apply, val_main_call1_v1_apply, val_main_v5_apply, val_main_cst_0_apply]
  simp only [val_main_call0_v0_apply, val_main_call1_v0_apply, val_main_call0_cst_apply, val_main_call1_cst_apply,
    lidx_eq, ridx_eq, rowIdx_eq, colIdx_eq,
    Ideal.hostDivf_def, Ideal.mulf_def, Ideal.maximumf_def, Ideal.hostUnary_sqrt_def, Ideal.ofBits_def, Ideal.ofBits_zero_f32, zero_add]
  rfl

end Cert.ReferenceIdeal.RefValue

end
-- ==== Proof.LibColumnLayout.lean ====
/-
  Two layout operations read at an index given by coordinates, for a COLUMN: a vector of length `a` re-shaped to
  an `[a, 1]` column keeps entry `i` at row `i`, and an `[a, 1]` column broadcast across `b` columns reads,
  at `(p, c)`, the column's entry at row `p` whatever the column `c`. They are the transposes of the row forms
  (a vector as a `[1, a]` row; a `[1, b]` row repeated over `a` rows), and are proved the same way: a shape cast
  preserves the row-major position, and a broadcast reads a unit axis at coordinate `0`.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockCosine.lean ====
/-
  What one grid point computes, entry by entry. The body loads a block `x₀` of 512 rows of `x` (all 4096 entries of
  each) and a block `x₁` of 256 columns of `w` (all 4096 entries of each) and stores, at `(p, q)` of a 512 × 256 block,

      (∑ₖ x₀[p,k] · x₁[k,q]) / ( max(√(∑ₖ x₀[p,k]²), ε) · max(√(∑ₖ x₁[k,q]²), ε) ).

  The pieces: a lane sum along axis 1 (resp. axis 0) started from the zero word is the `Fin 4096`-indexed sum of that
  row (resp. column); the sum, kept as a column (resp. row) and broadcast across the block, is read back at the row
  (resp. column) of the entry; the change of format before the product is the identity on the extended reals, and the
  product into a zero accumulator is the contraction's sum, re-indexed from the contraction shape's one axis to `Fin 4096`.
-/
import proofs.«158232_j54425825575210_1_alg».proof.Proof.Gen.KernelIdeal.Skeleton
import proofs.«158232_j54425825575210_1_alg».proof.Proof.LibColumnLayout
import proofs.«158232_j54425825575210_1_alg».proof.Proof.CosineSpec
import Idealize.ShloMosaic.PureOps.Ideal.Laws
import Idealize.ShloMosaic.Lib.ValueIdx
import Idealize.ShloMosaic.Lib.ValueLayout

noncomputable section

namespace Cert.KernelIdeal.BlockValue

open Cert.KernelIdeal Cert.KernelIdeal.Gen
open Idealize.ShloMosaic Idealize.ShloMosaic.ValueIdx Cert.Cosine

/-! ## The two lane sums -/

/-- The sum along axis 1 of a 512 × 4096 block, at row `p`: the sum over that row. -/
theorem rowSum_apply (v : FVec Ideal S512x4096 .f32) (h : S512x4096.Reduces [1] S512) (p : Fin 512) :
    multiReduction .add [1] S512 v 0x00000000#32 h (.inl rfl) rfl (ix1 p) = ∑ k : Fin 4096, v (ix2 p k) :=
  (Ideal.multiReduction_add_single v 0x00000000#32 h (.inl rfl) rfl (ix1 p)).trans
    (Finset.sum_congr rfl fun k _ => congrArg v (funext fun a => Fin.ext (by match a with | ⟨0, _⟩ => rfl | ⟨1, _⟩ => rfl)))

/-- The sum along axis 0 of a 4096 × 256 block, at column `q`: the sum over that column. -/
theorem colSum_apply (v : FVec Ideal S4096x256 .f32) (h : S4096x256.Reduces [0] S256) (q : Fin 256) :
    multiReduction .add [0] S256 v 0x00000000#32 h (.inl rfl) rfl (ix1 q) = ∑ k : Fin 4096, v (ix2 k q) :=
  (Ideal.multiReduction_add_single v 0x00000000#32 h (.inl rfl) rfl (ix1 q)).trans
    (Finset.sum_congr rfl fun k _ => congrArg v (funext fun a => Fin.ext (by match a with | ⟨0, _⟩ => rfl | ⟨1, _⟩ => rfl)))

/-! ## The two floored norms, as the body keeps them -/

/-- The floored norms of the block's rows, kept as a 512 × 1 column: at `(p, u)` the floored norm of row `p`. -/
theorem rowNormBlock_apply (x0 : FVec Ideal S512x4096 .f32) (h : S512x4096.Reduces [1] S512) (hc : S512.ShapeCasts S512x1)
    (p : Fin 512) (u : Fin 1) :
    maximumf (sqrt (shapeCast S512x1 (multiReduction .add [1] S512 (mulf x0 x0) 0x00000000#32 h (.inl rfl) rfl) hc))
        (broadcast S512x1 (Scalar.ofBits .f32 0x322BCC77#32)) (ix2 p u)
      = max (Ideal.sqrt (∑ k : Fin 4096, x0 (ix2 p k) * x0 (ix2 p k))) normFloor := by
  show max (Ideal.sqrt (shapeCast S512x1 (multiReduction .add [1] S512 (mulf x0 x0) 0x00000000#32 h (.inl rfl) rfl) hc (ix2 p u))) normFloor = _
  refine congrArg (fun s => max (Ideal.sqrt s) normFloor) ?_
  exact (shapeCast_a_a1_apply _ hc p u).trans (rowSum_apply (mulf x0 x0) h p)

/-- The floored norms of the block's columns, kept as a 1 × 256 row: at `(u, q)` the floored norm of column `q`. -/
theorem colNormBlock_apply (x1 : FVec Ideal S4096x256 .f32) (h : S4096x256.Reduces [0] S256) (hc : S256.ShapeCasts S1x256)
    (u : Fin 1) (q : Fin 256) :
    maximumf (sqrt (shapeCast S1x256 (multiReduction .add [0] S256 (mulf x1 x1) 0x00000000#32 h (.inl rfl) rfl) hc))
        (broadcast S1x256 (Scalar.ofBits .f32 0x322BCC77#32)) (ix2 u q)
      = max (Ideal.sqrt (∑ k : Fin 4096, x1 (ix2 k q) * x1 (ix2 k q))) normFloor := by
  show max (Ideal.sqrt (shapeCast S1x256 (multiReduction .add [0] S256 (mulf x1 x1) 0x00000000#32 h (.inl rfl) rfl) hc (ix2 u q))) normFloor = _
  refine congrArg (fun s => max (Ideal.sqrt s) normFloor) ?_
  exact (shapeCast_a_1a_apply _ hc u q).trans (colSum_apply (mulf x1 x1) h q)

/-! ## The block product -/

theorem lhs_row (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_contr (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_contr (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_col (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product of a 512 × 4096 block with a 4096 × 256 block into a zero accumulator, at `(p, q)`: the sum over
    `k` of the left block at `(p, k)` times the right block at `(k, q)`. -/
theorem blockProduct_apply (a : FVec Ideal S512x4096 .bf16) (b : FVec Ideal S4096x256 .bf16) (p : Fin 512) (q : Fin 256) :
    matmul dot_S512x4096_S4096x256_S512x256_1_0_0_1_n_n none a b (constant S512x256 .f32 0x00000000#32) (ix2 p q)
      = ∑ k : Fin 4096, a (ix2 p k) * b (ix2 k q) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun ax => Fin.ext (by
    match ax with
    | ⟨0, _⟩ => exact lhs_row _ _
    | ⟨1, _⟩ => exact (lhs_contr _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun ax => Fin.ext (by
    match ax with
    | ⟨0, _⟩ => exact (rhs_contr _ _).trans hk
    | ⟨1, _⟩ => exact rhs_col _ _)
  rw [el, er]

/-! ## The stored value -/

/-- The value the body stores, at `(p, q)` of the output block. -/
theorem stored_apply (x0 : Vec Ideal S512x4096 .f32) (x1 : Vec Ideal S4096x256 .f32) (p : Fin 512) (q : Fin 256) :
    k0_pay1 (F := Ideal) x0 x1 (ix2 p q)
      = Ideal.div (∑ k : Fin 4096, x0 (ix2 p k) * x1 (ix2 k q))
          (max (Ideal.sqrt (∑ k : Fin 4096, x0 (ix2 p k) * x0 (ix2 p k))) normFloor
            * max (Ideal.sqrt (∑ k : Fin 4096, x1 (ix2 k q) * x1 (ix2 k q))) normFloor) := by
  unfold k0_pay1
  dsimp only
  refine (divf_apply _ _ _).trans (congrArg₂ Ideal.div ?_ ((mulf_apply _ _ _).trans (congrArg₂ (· * ·) ?_ ?_)))
  · exact blockProduct_apply (truncf .bf16 x0 bitsLt_bf16_f32) (truncf .bf16 x1 bitsLt_bf16_f32) p q
  · exact (broadcastTo_a1_ab_apply _ broadcasts_S512x1_S512x256 p q).trans
      (rowNormBlock_apply x0 reduces_S512x4096_S512 shapeCasts_S512_S512x1 p 0)
  · exact (broadcastTo_1b_ab_apply _ broadcasts_S1x256_S512x256 p q).trans
      (colNormBlock_apply x1 reduces_S4096x256_S256 shapeCasts_S256_S1x256 0 q)

end Cert.KernelIdeal.BlockValue

end
-- ==== Proof.KernelCosine.lean ====
/-
  From the grid's blocks to the whole array. The grid has 8 × 128 points; point `t` sits at block row `t / 128` and
  block column `t % 128`. There the body reads rows `512·(t/128) …` of `x` (every column) and columns
  `256·(t%128) …` of `w` (every row), and writes the 512 × 256 block of the result at that block row and block column.
  Entry `(p, q)` of what it writes is the cosine similarity of row `p` of the loaded rows with column `q` of the
  loaded columns, which are row `512·(t/128) + p` of `x` and column `256·(t%128) + q` of `w`: so each point writes
  its own block of ONE function of the two argument arrays, `cosine`. The blocks tile the result — entry `(r, s)` is in
  the block of the point `(r/512)·128 + s/256` — so the array ends holding `cosine x w` everywhere.
-/
import proofs.«158232_j54425825575210_1_alg».proof.Proof.Gen.KernelIdeal.Value
import proofs.«158232_j54425825575210_1_alg».proof.Proof.BlockCosine

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Cert.Cosine
open Idealize.ShloMosaic.Pipeline (Dat)

/-! ## One point, one entry -/

/-- If the loaded rows' row `j 0` is row `i 0` of `X` and the loaded columns' column `j 1` is column `i 1` of `W`,
    the value stored at `j` is the cosine similarity at `i`. -/
theorem stored_eq_cosine (X : FVec Ideal S4096x4096 .f32) (W : FVec Ideal S4096x32768 .f32)
    (x0 : Vec Ideal S512x4096 .f32) (x1 : Vec Ideal S4096x256 .f32) (j : S512x256.Idx) (i : S4096x32768.Idx)
    (hx : ∀ k : Fin 4096, x0 (ix2 (j 0) k) = X (ix2 (i 0) k))
    (hw : ∀ k : Fin 4096, x1 (ix2 k (j 1)) = W (ix2 k (i 1))) :
    k0_pay1 (F := Ideal) x0 x1 j = cosine X W i := by
  obtain ⟨p, q, rfl⟩ : ∃ (p : Fin 512) (q : Fin 256), j = ix2 p q := ⟨j 0, j 1, eq_ix2 j⟩
  have hx' : ∀ k : Fin 4096, x0 (ix2 p k) = X (ix2 (i 0) k) := hx
  have hw' : ∀ k : Fin 4096, x1 (ix2 k q) = W (ix2 k (i 1)) := hw
  rw [stored_apply]
  unfold Cert.Cosine.cosine Cert.Cosine.inner Cert.Cosine.rowNorm Cert.Cosine.colNorm
  simp only [hx', hw']

variable (m : (ℓ : Loc nD τ sig) → Buf (Elt Ideal) ℓ) (ρ : Dev nD → PrngReg)

/-! ## Where each point's blocks lie -/

theorem origin : (![0, 0] : Fin 2 → Nat) = fun _ => 0 := funext fun a => by fin_cases a <;> rfl

/-- The printed index maps, decided over the grid: point `t` reads block row `t / 128` of `x` (its one block
    column), block column `t % 128` of `w` (its one block row), and writes block `(t / 128, t % 128)`. -/
theorem blockIdx : ∀ t : Fin cfg0.N,
    win0_0.index t (0 : Fin 2) = t.val / 128 ∧ win0_0.index t (1 : Fin 2) = 0
    ∧ win0_1.index t (0 : Fin 2) = 0 ∧ win0_1.index t (1 : Fin 2) = t.val % 128
    ∧ win0_2.index t (0 : Fin 2) = t.val / 128 ∧ win0_2.index t (1 : Fin 2) = t.val % 128 :=
  (by decide +kernel : ∀ t : Fin grid0.N, _)

/-! ## What a point writes back -/

/-- Point `t` writes back its block of `cosine` of the two argument arrays. -/
theorem flushed_eq (c : Dev nD) (t : Fin cfg0.N) :
    (dats m 0 c).flushed 2 t = ((cfg0.win 2).blk t).view.read (Elt Ideal) (cosine (V m c main_arg0) (V m c main_arg1)) := by
  rw [Value.flushed2]
  unfold out0_2
  rw [View.canon_unit_zero origin]
  simp only [View.ld_unit_zero (S := S512x4096) origin, View.ld_unit_zero (S := S4096x256) origin]
  obtain ⟨e0, e1, e2, e3, e4, e5⟩ := blockIdx t
  funext j
  show k0_pay1 (F := Ideal) (iblk m c 0 t) (iblk m c 1 t) j
    = cosine (V m c main_arg0) (V m c main_arg1) (((cfg0.win 2).blk t).view.emb j)
  refine stored_eq_cosine (V m c main_arg0) (V m c main_arg1) (iblk m c 0 t) (iblk m c 1 t) j
    (((cfg0.win 2).blk t).view.emb j) (fun k => ?_) (fun k => ?_)
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * k.val = k.val
      omega
  · show V m c main_arg1 (((cfg0.win 1).blk t).view.emb (ix2 k (j 1)))
      = V m c main_arg1 (ix2 k ((((cfg0.win 2).blk t).view.emb j) 1))
    refine congrArg (V m c main_arg1) (funext fun a => Fin.ext ?_)
    match a with
    | ⟨0, _⟩ =>
      show win0_1.index t (0 : Fin 2) * 4096 + 1 * k.val = k.val
      omega
    | ⟨1, _⟩ =>
      show win0_1.index t (1 : Fin 2) * 256 + 1 * (j 1).val = win0_2.index t (1 : Fin 2) * 256 + 1 * (j 1).val
      omega

/-! ## The blocks tile the result -/

/-- An entry of the result is in point `t`'s block iff each coordinate is in the block's range on its axis. -/
theorem mem_outBlock (t : Fin cfg0.N) (i : S4096x32768.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Every entry `(r, s)` of the result is in the block of the point `(r / 512) · 128 + s / 256`, which writes back. -/
theorem covered (i : S4096x32768.Idx) :
    ∃ t : Fin cfg0.N, (cfg0.win 2).flush t = true ∧ i ∈ ((cfg0.win 2).blk t).view.set := by
  have hi0 : (i 0).val < 4096 := (i 0).isLt
  have hi1 : (i 1).val < 32768 := (i 1).isLt
  have hN : cfg0.N = 1024 := N_0
  have hlt : (i 0).val / 512 * 128 + (i 1).val / 256 < cfg0.N := by omega
  obtain ⟨-, -, -, -, e4, e5⟩ := blockIdx ⟨(i 0).val / 512 * 128 + (i 1).val / 256, hlt⟩
  have q0 : win0_2.index ⟨(i 0).val / 512 * 128 + (i 1).val / 256, hlt⟩ (0 : Fin 2) = (i 0).val / 512 := by
    rw [e4]; show ((i 0).val / 512 * 128 + (i 1).val / 256) / 128 = (i 0).val / 512; omega
  have q1 : win0_2.index ⟨(i 0).val / 512 * 128 + (i 1).val / 256, hlt⟩ (1 : Fin 2) = (i 1).val / 256 := by
    rw [e5]; show ((i 0).val / 512 * 128 + (i 1).val / 256) % 128 = (i 1).val / 256; omega
  refine ⟨⟨(i 0).val / 512 * 128 + (i 1).val / 256, hlt⟩, flush0_2 _, ?_⟩
  rw [mem_outBlock]
  intro a
  match a with
  | ⟨0, _⟩ =>
    show win0_2.index ⟨(i 0).val / 512 * 128 + (i 1).val / 256, hlt⟩ (0 : Fin 2) * 512 ≤ (i 0).val
      ∧ (i 0).val < win0_2.index ⟨(i 0).val / 512 * 128 + (i 1).val / 256, hlt⟩ (0 : Fin 2) * 512 + 512
    omega
  | ⟨1, _⟩ =>
    show win0_2.index ⟨(i 0).val / 512 * 128 + (i 1).val / 256, hlt⟩ (1 : Fin 2) * 256 ≤ (i 1).val
      ∧ (i 1).val < win0_2.index ⟨(i 0).val / 512 * 128 + (i 1).val / 256, hlt⟩ (1 : Fin 2) * 256 + 256
    omega

/-! ## The array after the run -/

/-- After the last point the result array holds the cosine similarity of the two argument arrays as launched. -/
theorem final (c : Dev nD) :
    (dats m 0 c).arrAt 2 cfg0.N = cosine (m ((c : Thread nD τ).loc main_arg0)) (m ((c : Thread nD τ).loc main_arg1)) :=
  (dats m 0 c).arrAt_eq_of_cover 2 (cosine (V m c main_arg0) (V m c main_arg1)) (fun t _ => flushed_eq m c t) (covered)

/-- Every weakly fair execution of the kernel's program terminates with the result array at `cosine` of the
    arguments and the arguments unchanged. -/
theorem run : θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  A cosine-similarity kernel against its jnp reference, over the extended reals. For `x` of 4096 rows of length 4096
  and `w` of 32768 columns of length 4096, both programs compute, at `(b, o)`,

      (∑ₖ x[b,k] · w[k,o]) / ( max(√(∑ₖ x[b,k]²), ε) · max(√(∑ₖ w[k,o]²), ε) ),

  with the same constant `ε` (one 32-bit word, never evaluated). The kernel does it tile by tile on an 8 × 128 grid:
  a point loads 512 whole rows of `x` and 256 whole columns of `w`, takes the two families of norms from the loaded
  tiles, multiplies the tiles (the change of float format before the product is the identity here) and divides; the
  512 × 256 tiles it writes partition the result. The reference contracts the whole matrices once, takes every row
  norm of `x` and every column norm of `w` once, broadcasts them and divides. Entry by entry the two are the same
  expression: the sums run over the same 4096 terms in the same order, so no law of the extended reals beyond reading
  each operation at an index is used, and the finiteness of the inputs is never opened.

  The kernel's side is `KernelCosine` (each point writes its block of `Cosine.cosine`; the blocks tile the array), over
  `BlockCosine` (the stored value at an entry of a tile); the reference's side is `ReferenceCosine`; the frames are
  the generated ones, and the idealization rewrote nothing.
-/
import proofs.«158232_j54425825575210_1_alg».proof.Defs
import proofs.«158232_j54425825575210_1_alg».proof.Proof.Gen.Kernel
import proofs.«158232_j54425825575210_1_alg».proof.Proof.Gen.Kernel.Skeleton
import proofs.«158232_j54425825575210_1_alg».proof.Proof.Gen.Kernel.Launch
import proofs.«158232_j54425825575210_1_alg».proof.Proof.Gen.Kernel.Points
import proofs.«158232_j54425825575210_1_alg».proof.Proof.Gen.Kernel.Frame
import proofs.«158232_j54425825575210_1_alg».proof.Proof.Gen.KernelIdeal
import proofs.«158232_j54425825575210_1_alg».proof.Proof.Gen.KernelIdeal.Skeleton
import proofs.«158232_j54425825575210_1_alg».proof.Proof.Gen.KernelIdeal.Launch
import proofs.«158232_j54425825575210_1_alg».proof.Proof.Gen.KernelIdeal.Points
import proofs.«158232_j54425825575210_1_alg».proof.Proof.Gen.KernelIdeal.Frame
import proofs.«158232_j54425825575210_1_alg».proof.Proof.Gen.ReferenceIdeal
import proofs.«158232_j54425825575210_1_alg».proof.Proof.Gen.Pre_finite_inputs
import proofs.«158232_j54425825575210_1_alg».proof.Proof.Gen.KernelIdeal.Value
import proofs.«158232_j54425825575210_1_alg».proof.Proof.Gen.ReferenceIdeal.Run
import proofs.«158232_j54425825575210_1_alg».proof.Proof.Gen.ReferenceIdeal.Read
import proofs.«158232_j54425825575210_1_alg».proof.Proof.ReferenceCosine
import proofs.«158232_j54425825575210_1_alg».proof.Proof.KernelCosine
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w`, the kernel's result array and the reference's both end at
    `Cosine.cosine x w`. -/
theorem algebraic : Cert.algebraic_KernelIdeal_ReferenceIdeal := by
  intro m ρ m' ρ' _ hagree
  refine ⟨fun c => Cert.Cosine.cosine (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
